-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008 .f32) (main_arg3 : IVec S11008x4096 32) (main_arg4 : FVec F S11008 .f32) (main_arg5 : IVec S4096x11008 32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S8192x4096 : Shape := ⟨2, ![8192, 4096]⟩
abbrev S11008x1 : Shape := ⟨2, ![11008, 1]⟩
abbrev S4096x1 : Shape := ⟨2, ![4096, 1]⟩
abbrev S512x4096 : Shape := ⟨2, ![512, 4096]⟩
abbrev S128x4096 : Shape := ⟨2, ![128, 4096]⟩
abbrev S4096x128 : Shape := ⟨2, ![4096, 128]⟩
abbrev S512x128 : Shape := ⟨2, ![512, 128]⟩

abbrev nBuf : Space → Nat
  | .hbm => 26
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .i32⟩
  | .hbm, ⟨4, _⟩ => ⟨S11008, .f32⟩
  | .hbm, ⟨5, _⟩ => ⟨S4096x11008, .i32⟩
  | .hbm, ⟨6, _⟩ => ⟨S4096, .f32⟩
  | .hbm, ⟨7, _⟩ => ⟨S8192x4096, .f32⟩
  | .hbm, ⟨8, _⟩ => ⟨S8192x4096, .bf16⟩
  | .hbm, ⟨9, _⟩ => ⟨S11008x4096, .f32⟩
  | .hbm, ⟨10, _⟩ => ⟨S11008x1, .f32⟩
  | .hbm, ⟨11, _⟩ => ⟨S11008x4096, .f32⟩
  | .hbm, ⟨12, _⟩ => ⟨S11008x4096, .f32⟩
  | .hbm, ⟨13, _⟩ => ⟨S11008x4096, .bf16⟩
  | .hbm, ⟨14, _⟩ => ⟨S11008x4096, .f32⟩
  | .hbm, ⟨15, _⟩ => ⟨S11008x1, .f32⟩
  | .hbm, ⟨16, _⟩ => ⟨S11008x4096, .f32⟩
  | .hbm, ⟨17, _⟩ => ⟨S11008x4096, .f32⟩
  | .hbm, ⟨18, _⟩ => ⟨S11008x4096, .bf16⟩
  | .hbm, ⟨19, _⟩ => ⟨S4096x11008, .f32⟩
  | .hbm, ⟨20, _⟩ => ⟨S4096x1, .f32⟩
  | .hbm, ⟨21, _⟩ => ⟨S4096x11008, .f32⟩
  | .hbm, ⟨22, _⟩ => ⟨S4096x11008, .f32⟩
  | .hbm, ⟨23, _⟩ => ⟨S4096x11008, .bf16⟩
  | .hbm, ⟨24, _⟩ => ⟨S8192x4096, .f32⟩
  | .hbm, ⟨25, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S4096x128, .bf16⟩
  | .local _ .vmem, ⟨7, _⟩ => ⟨S4096x128, .bf16⟩
  | .local _ .vmem, ⟨8, _⟩ => ⟨S512x4096, .f32⟩
  | .local _ .vmem, ⟨9, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S8192x4096_S4x2048x4096 : S8192x4096.ShapeCasts S4x2048x4096
  dot_S512x4096_S128x4096_S512x128_1_1_0_0_n_n_wf : DotDims.WF S512x4096 S128x4096 S512x128 [1] [1] [0] [0] [] []
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .bf16 = 32 ∨ (Rect.block (s := S11008x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .bf16 = 32 ∨ (Rect.block (s := S11008x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x11008.size a
  hwx0_3 : ∀ i : grid0.Coords, EltTy.bits .bf16 = 32 ∨ (Rect.block (s := S4096x11008) S4096x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S11008x1 : Shape := ⟨2, ![11008, 1]⟩
abbrev S4096x1 : Shape := ⟨2, ![4096, 1]⟩
abbrev S4x2048x11008 : Shape := ⟨3, ![4, 2048, 11008]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .i32⟩
  | .hbm, ⟨4, _⟩ => ⟨S11008, .f32⟩
  | .hbm, ⟨5, _⟩ => ⟨S4096x11008, .i32⟩
  | .hbm, ⟨6, _⟩ => ⟨S4096, .f32⟩
  | .hbm, ⟨7, _⟩ => ⟨S11008x4096, .f32⟩
  | .hbm, ⟨8, _⟩ => ⟨S11008x1, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S11008x1, .f32⟩
  | .hbm, ⟨13, _⟩ => ⟨S11008x4096, .f32⟩
  | .hbm, ⟨14, _⟩ => ⟨S11008x4096, .f32⟩
  | .hbm, ⟨15, _⟩ => ⟨S4096x11008, .f32⟩
  | .hbm, ⟨16, _⟩ => ⟨S4096x1, .f32⟩
  | .hbm, ⟨17, _⟩ => ⟨S4096x11008, .f32⟩
  | .hbm, ⟨18, _⟩ => ⟨S4096x11008, .f32⟩
  | .hbm, ⟨19, _⟩ => ⟨S4x2048x11008, .f32⟩
  | .hbm, ⟨20, _⟩ => ⟨S4x2048x11008, .f32⟩
  | .hbm, ⟨21, _⟩ => ⟨S4x2048x11008, .f32⟩
  | .hbm, ⟨22, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.Spec.lean ====
/-
  The gated product of three linear maps, as plain sums over the extended reals.

  For a matrix `X` (rows `M`, columns `h`), two weight matrices `Wg`, `Wu` (rows: channels `i`, columns `h`) and a
  third `Wd` (rows `q`, columns: channels `i`), the entry `(M, q)` of the result is
      ∑ i, ((∑ h, X M h * Wg i h) * (∑ h, X M h * Wu i h)) * Wd q i.
  The channels are visited in 86 consecutive blocks of 128; the running value after block `j` is the sum over the
  first `j + 1` blocks, it starts from `0`, each block adds its own 128 terms, and after the last block it is
  the whole sum. Only commutativity and associativity of `+` are used, so nothing here asks the entries to be finite.
-/
import Idealize.ShloMosaic.PureOps.Ideal
import Idealize.ShloMosaic.Lib.ValueIdx
import Mathlib.Algebra.BigOperators.Fin

noncomputable section

namespace Cert.GatedMlp

open Finset

/-- A sum over `n` consecutive blocks of `b` naturals is the sum over the first `n * b` naturals. -/
theorem sum_range_blocks {A : Type*} [AddCommMonoid A] (f : ℕ → A) (b n : ℕ) :
    ∑ j ∈ range n, ∑ i ∈ range b, f (b * j + i) = ∑ i ∈ range (n * b), f i := by
  induction n with
  | zero => simp
  | succ n ih =>
    rw [sum_range_succ, ih, Nat.succ_mul, sum_range_add, Nat.mul_comm b n]

variable (X : Fin 8192 → Fin 4096 → EReal) (Wg Wu : Fin 11008 → Fin 4096 → EReal) (Wd : Fin 4096 → Fin 11008 → EReal)

/-- Channel `i`'s contribution to entry `(M, q)`. -/
def term (M : Fin 8192) (q : Fin 4096) (i : Fin 11008) : EReal :=
  ((∑ h : Fin 4096, X M h * Wg i h) * (∑ h : Fin 4096, X M h * Wu i h)) * Wd q i

/-- Entry `(M, q)` of the gated product: all channels. -/
def mlp (M : Fin 8192) (q : Fin 4096) : EReal := ∑ i : Fin 11008, term X Wg Wu Wd M q i

/-- The contribution of the channel numbered `n` (zero past the last channel). -/
def termN (M : Fin 8192) (q : Fin 4096) (n : ℕ) : EReal :=
  if h : n < 11008 then term X Wg Wu Wd M q ⟨n, h⟩ else 0

/-- The 128 contributions of block `j`. -/
def blockSum (M : Fin 8192) (q : Fin 4096) (j : ℕ) : EReal := ∑ i : Fin 128, termN X Wg Wu Wd M q (128 * j + i.val)

/-- The running value after block `j`: the first `j + 1` blocks. -/
def upTo (M : Fin 8192) (q : Fin 4096) (j : ℕ) : EReal := ∑ j' ∈ range (j + 1), blockSum X Wg Wu Wd M q j'

theorem upTo_zero (M : Fin 8192) (q : Fin 4096) : upTo X Wg Wu Wd M q 0 = 0 + blockSum X Wg Wu Wd M q 0 := by
  simp [upTo]

theorem upTo_succ (M : Fin 8192) (q : Fin 4096) (j : ℕ) :
    upTo X Wg Wu Wd M q (j + 1) = upTo X Wg Wu Wd M q j + blockSum X Wg Wu Wd M q (j + 1) := by
  unfold upTo; rw [sum_range_succ]

/-- Block `j` (one of the 86) written over its own channels. -/
theorem blockSum_eq (M : Fin 8192) (q : Fin 4096) (j : ℕ) (hj : j < 86) :
    blockSum X Wg Wu Wd M q j = ∑ i : Fin 128, term X Wg Wu Wd M q ⟨128 * j + i.val, by have := i.isLt; omega⟩ := by
  unfold blockSum termN
  refine sum_congr rfl fun i _ => ?_
  have : 128 * j + i.val < 11008 := by have := i.isLt; omega
  rw [dif_pos this]

/-- After the last block the running value is the whole sum. -/
theorem upTo_last (M : Fin 8192) (q : Fin 4096) : upTo X Wg Wu Wd M q 85 = mlp X Wg Wu Wd M q := by
  unfold upTo blockSum mlp
  have h1 : ∀ j : ℕ, ∑ i : Fin 128, termN X Wg Wu Wd M q (128 * j + i.val)
      = ∑ i ∈ range 128, termN X Wg Wu Wd M q (128 * j + i) := fun j =>
    Fin.sum_univ_eq_sum_range (fun i => termN X Wg Wu Wd M q (128 * j + i)) 128
  simp only [h1]
  rw [sum_range_blocks (termN X Wg Wu Wd M q) 128 86, ← Fin.sum_univ_eq_sum_range]
  refine sum_congr rfl fun i _ => ?_
  unfold termN
  rw [dif_pos i.isLt]

end Cert.GatedMlp

end
-- ==== Proof.Pieces.lean ====
/-
  What one call of the kernel body leaves in the output block, as a value.

  At the first channel block of a row tile the body stores the zero block, reads it back and stores
  `0 + (this block's partial product)`; at every later channel block it reads what the previous call left and stores
  `previous + partial product`. Both are the one payload `k0_pay2` of the four input blocks and the accumulator read.
-/
import proofs.«122213_j6665789243839_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem offs_zero : (![0, 0] : Fin 2 → Nat) = fun _ => 0 := funext fun a => by fin_cases a <;> rfl

/-- A later channel block: the accumulator found, plus this block's partial product. -/
theorem later_block (c : Dev nD) (i : grid0.Coords) (arg2 : Memref sig .tc .vmem S512x4096 .bf16) (harg2 : arg2.IsWhole)
    (arg3 : Memref sig .tc .vmem S128x4096 .bf16) (harg3 : arg3.IsWhole) (arg4 : Memref sig .tc .vmem S128x4096 .bf16) (harg4 : arg4.IsWhole)
    (arg5 : Memref sig .tc .vmem S4096x128 .bf16) (harg5 : arg5.IsWhole) (arg6 : Memref sig .tc .vmem S512x4096 .f32) (harg6 : arg6.IsWhole)
    (hc0 : ¬cond0_0 i) (x0 : Vec F S512x4096 .bf16) (x1 : Vec F S128x4096 .bf16) (x2 : Vec F S128x4096 .bf16) (x3 : Vec F S4096x128 .bf16)
    (xo4 : Vec F S512x4096 .f32) :
    out0_B_4 c i arg2 harg2 arg3 harg3 arg4 harg4 arg5 harg5 arg6 harg6 hc0 x0 x1 x2 x3 xo4 = k0_pay2 x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_unit_zero offs_zero]
  simp only [View.readAt_eq_ld, harg2.read_unread, harg3.read_unread, harg4.read_unread, harg5.read_unread, harg6.read_unread,
    View.ld_unit_zero (S := S512x4096) offs_zero, View.ld_unit_zero (S := S128x4096) offs_zero,
    View.ld_unit_zero (S := S4096x128) offs_zero]

/-- The zero block the first channel block stores before accumulating. -/
abbrev zeroBlock : Vec F S512x4096 .f32 := k0_pay1

/-- The first channel block of a row tile: zero, plus this block's partial product. -/
theorem first_block (c : Dev nD) (i : grid0.Coords) (arg2 : Memref sig .tc .vmem S512x4096 .bf16) (harg2 : arg2.IsWhole)
    (arg3 : Memref sig .tc .vmem S128x4096 .bf16) (harg3 : arg3.IsWhole) (arg4 : Memref sig .tc .vmem S128x4096 .bf16) (harg4 : arg4.IsWhole)
    (arg5 : Memref sig .tc .vmem S4096x128 .bf16) (harg5 : arg5.IsWhole) (arg6 : Memref sig .tc .vmem S512x4096 .f32) (harg6 : arg6.IsWhole)
    (hc0 : cond0_0 i) (x0 : Vec F S512x4096 .bf16) (x1 : Vec F S128x4096 .bf16) (x2 : Vec F S128x4096 .bf16) (x3 : Vec F S4096x128 .bf16) :
    out0_A_4 c i arg2 harg2 arg3 harg3 arg4 harg4 arg5 harg5 arg6 harg6 hc0 x0 x1 x2 x3 = k0_pay2 x0 x1 x2 x3 (zeroBlock (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S512x4096) offs_zero, View.readCov_unit_zero (S := S512x4096) _ offs_zero]
  simp only [View.readAt_eq_ld, harg2.read_unread, harg3.read_unread, harg4.read_unread, harg5.read_unread,
    View.ld_unit_zero (S := S512x4096) offs_zero, View.ld_unit_zero (S := S128x4096) offs_zero,
    View.ld_unit_zero (S := S4096x128) offs_zero]

end Cert.KernelIdeal.Pieces

end
-- ==== Proof.Payload.lean ====
/-
  The body's arithmetic at one entry of the output block, over the extended reals.

  Both products contract the LAST axis of both operands (a row of the left operand against a row of the right one), so
  entry `(p, n)` of a product is `∑ k, lhs (p, k) * rhs (n, k)`. The block of activations `x0` (512 rows) meets the 128
  gate rows `x1` and the 128 up rows `x2`; the two results are multiplied entry by entry; that 512 × 128 block meets the
  4096 rows of the down block `x3` (each of length 128); the result is added to the accumulator. Changes of float format
  and shape casts between equal shapes do nothing to the values.
-/
import proofs.«122213_j6665789243839_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-! ## Which operand entries an output entry reads, axis by axis

First the product of the activations (512 × 4096) with 128 weight rows (128 × 4096). -/

theorem rowsByRows_lhs_0 (i : S512x128.Idx) (q : dot_S512x4096_S128x4096_S512x128_1_1_0_0_n_n.contr.Idx) :
    (dot_S512x4096_S128x4096_S512x128_1_1_0_0_n_n.lhsIdx i q 0).val = (i 0).val := by
  unfold DotDims.lhsIdx
  rw [dif_neg (show ¬(0 : Fin S512x4096.rank) ∈ dot_S512x4096_S128x4096_S512x128_1_1_0_0_n_n.lhsBatch by decide), dif_pos (show (0 : Fin S512x4096.rank) ∈ dot_S512x4096_S128x4096_S512x128_1_1_0_0_n_n.lhsNonContracting by decide)]
  rfl
theorem rowsByRows_lhs_1 (i : S512x128.Idx) (q : dot_S512x4096_S128x4096_S512x128_1_1_0_0_n_n.contr.Idx) :
    (dot_S512x4096_S128x4096_S512x128_1_1_0_0_n_n.lhsIdx i q 1).val = (q ⟨0, by decide⟩).val :=
  dot_S512x4096_S128x4096_S512x128_1_1_0_0_n_n.lhsIdx_val_of_single rfl i q
theorem rowsByRows_rhs_0 (i : S512x128.Idx) (q : dot_S512x4096_S128x4096_S512x128_1_1_0_0_n_n.contr.Idx) :
    (dot_S512x4096_S128x4096_S512x128_1_1_0_0_n_n.rhsIdx i q 0).val = (i 1).val := by
  unfold DotDims.rhsIdx
  rw [dif_neg (show ¬(0 : Fin S128x4096.rank) ∈ dot_S512x4096_S128x4096_S512x128_1_1_0_0_n_n.rhsBatch by decide), dif_pos (show (0 : Fin S128x4096.rank) ∈ dot_S512x4096_S128x4096_S512x128_1_1_0_0_n_n.rhsNonContracting by decide)]
  rfl
theorem rowsByRows_rhs_1 (i : S512x128.Idx) (q : dot_S512x4096_S128x4096_S512x128_1_1_0_0_n_n.contr.Idx) :
    (dot_S512x4096_S128x4096_S512x128_1_1_0_0_n_n.rhsIdx i q 1).val = (q ⟨0, by decide⟩).val :=
  dot_S512x4096_S128x4096_S512x128_1_1_0_0_n_n.rhsIdx_val_of_single rfl i q

/-! Then the product of the gated block (512 × 128) with the down block (4096 × 128). -/

theorem gatedByDown_lhs_0 (i : S512x4096.Idx) (q : dot_S512x128_S4096x128_S512x4096_1_1_0_0_n_n.contr.Idx) :
    (dot_S512x128_S4096x128_S512x4096_1_1_0_0_n_n.lhsIdx i q 0).val = (i 0).val := by
  unfold DotDims.lhsIdx
  rw [dif_neg (show ¬(0 : Fin S512x128.rank) ∈ dot_S512x128_S4096x128_S512x4096_1_1_0_0_n_n.lhsBatch by decide), dif_pos (show (0 : Fin S512x128.rank) ∈ dot_S512x128_S4096x128_S512x4096_1_1_0_0_n_n.lhsNonContracting by decide)]
  rfl
theorem gatedByDown_lhs_1 (i : S512x4096.Idx) (q : dot_S512x128_S4096x128_S512x4096_1_1_0_0_n_n.contr.Idx) :
    (dot_S512x128_S4096x128_S512x4096_1_1_0_0_n_n.lhsIdx i q 1).val = (q ⟨0, by decide⟩).val :=
  dot_S512x128_S4096x128_S512x4096_1_1_0_0_n_n.lhsIdx_val_of_single rfl i q
theorem gatedByDown_rhs_0 (i : S512x4096.Idx) (q : dot_S512x128_S4096x128_S512x4096_1_1_0_0_n_n.contr.Idx) :
    (dot_S512x128_S4096x128_S512x4096_1_1_0_0_n_n.rhsIdx i q 0).val = (i 1).val := by
  unfold DotDims.rhsIdx
  rw [dif_neg (show ¬(0 : Fin S4096x128.rank) ∈ dot_S512x128_S4096x128_S512x4096_1_1_0_0_n_n.rhsBatch by decide), dif_pos (show (0 : Fin S4096x128.rank) ∈ dot_S512x128_S4096x128_S512x4096_1_1_0_0_n_n.rhsNonContracting by decide)]
  rfl
theorem gatedByDown_rhs_1 (i : S512x4096.Idx) (q : dot_S512x128_S4096x128_S512x4096_1_1_0_0_n_n.contr.Idx) :
    (dot_S512x128_S4096x128_S512x4096_1_1_0_0_n_n.rhsIdx i q 1).val = (q ⟨0, by decide⟩).val :=
  dot_S512x128_S4096x128_S512x4096_1_1_0_0_n_n.rhsIdx_val_of_single rfl i q

/-! ## The two products at an entry -/

/-- Activations against 128 weight rows: entry `(p, n)` pairs row `p` of the activations with weight row `n`, over
    the 4096 hidden positions. -/
theorem rowsByRows_apply (lhs : FVec Ideal S512x4096 .bf16) (rhs : FVec Ideal S128x4096 .bf16) (p : Fin 512) (n : Fin 128) :
    matmul dot_S512x4096_S128x4096_S512x128_1_1_0_0_n_n none lhs rhs (constant (F := Ideal) S512x128 .f32 0x00000000#32) (ix2 p n)
      = ∑ k : Fin 4096, lhs (ix2 p k) * rhs (ix2 n k) := by
  simp only [matmul]
  rw [Ideal.matmul_constant_zero_apply, ← Equiv.sum_comp (contrEquiv1 dot_S512x4096_S128x4096_S512x128_1_1_0_0_n_n 4096 rfl rfl).symm]
  refine Finset.sum_congr rfl fun k _ => ?_
  have hk := contrEquiv1_symm_val dot_S512x4096_S128x4096_S512x128_1_1_0_0_n_n 4096 rfl rfl k
  have el : dot_S512x4096_S128x4096_S512x128_1_1_0_0_n_n.lhsIdx (ix2 p n) ((contrEquiv1 dot_S512x4096_S128x4096_S512x128_1_1_0_0_n_n 4096 rfl rfl).symm k) = ix2 p k := funext fun a => Fin.ext (by
    match a with
    | ⟨0, _⟩ => exact rowsByRows_lhs_0 _ _
    | ⟨1, _⟩ => exact (rowsByRows_lhs_1 _ _).trans hk)
  have er : dot_S512x4096_S128x4096_S512x128_1_1_0_0_n_n.rhsIdx (ix2 p n) ((contrEquiv1 dot_S512x4096_S128x4096_S512x128_1_1_0_0_n_n 4096 rfl rfl).symm k) = ix2 n k := funext fun a => Fin.ext (by
    match a with
    | ⟨0, _⟩ => exact rowsByRows_rhs_0 _ _
    | ⟨1, _⟩ => exact (rowsByRows_rhs_1 _ _).trans hk)
  rw [el, er]

/-- The gated block against the down block: entry `(p, q)` pairs row `p` of the gated block with row `q` of the down
    block, over the block's 128 channels. -/
theorem gatedByDown_apply (lhs : FVec Ideal S512x128 .bf16) (rhs : FVec Ideal S4096x128 .bf16) (p : Fin 512) (n : Fin 4096) :
    matmul dot_S512x128_S4096x128_S512x4096_1_1_0_0_n_n none lhs rhs (constant (F := Ideal) S512x4096 .f32 0x00000000#32) (ix2 p n)
      = ∑ k : Fin 128, lhs (ix2 p k) * rhs (ix2 n k) := by
  simp only [matmul]
  rw [Ideal.matmul_constant_zero_apply, ← Equiv.sum_comp (contrEquiv1 dot_S512x128_S4096x128_S512x4096_1_1_0_0_n_n 128 rfl rfl).symm]
  refine Finset.sum_congr rfl fun k _ => ?_
  have hk := contrEquiv1_symm_val dot_S512x128_S4096x128_S512x4096_1_1_0_0_n_n 128 rfl rfl k
  have el : dot_S512x128_S4096x128_S512x4096_1_1_0_0_n_n.lhsIdx (ix2 p n) ((contrEquiv1 dot_S512x128_S4096x128_S512x4096_1_1_0_0_n_n 128 rfl rfl).symm k) = ix2 p k := funext fun a => Fin.ext (by
    match a with
    | ⟨0, _⟩ => exact gatedByDown_lhs_0 _ _
    | ⟨1, _⟩ => exact (gatedByDown_lhs_1 _ _).trans hk)
  have er : dot_S512x128_S4096x128_S512x4096_1_1_0_0_n_n.rhsIdx (ix2 p n) ((contrEquiv1 dot_S512x128_S4096x128_S512x4096_1_1_0_0_n_n 128 rfl rfl).symm k) = ix2 n k := funext fun a => Fin.ext (by
    match a with
    | ⟨0, _⟩ => exact gatedByDown_rhs_0 _ _
    | ⟨1, _⟩ => exact (gatedByDown_rhs_1 _ _).trans hk)
  rw [el, er]

/-! ## The payloads -/

/-- The block stored at the first channel block is zero everywhere. -/
theorem pay1_apply (j : S512x4096.Idx) : k0_pay1 (F := Ideal) j = 0 := by
  unfold k0_pay1
  show Ideal.ofBits .f32 0x00000000#32 = 0
  exact Ideal.ofBits_zero_f32

/-- The stored block at entry `(p, q)`: the accumulator there plus the 128 channels' contributions. -/
theorem pay2_apply (x0 : Vec Ideal S512x4096 .bf16) (x1 x2 : Vec Ideal S128x4096 .bf16) (x3 : Vec Ideal S4096x128 .bf16)
    (acc : Vec Ideal S512x4096 .f32) (p : Fin 512) (q : Fin 4096) :
    k0_pay2 (F := Ideal) x0 x1 x2 x3 acc (ix2 p q)
      = acc (ix2 p q) + ∑ n : Fin 128, ((∑ k : Fin 4096, x0 (ix2 p k) * x1 (ix2 n k)) * (∑ k : Fin 4096, x0 (ix2 p k) * x2 (ix2 n k))) * x3 (ix2 q n) := by
  unfold k0_pay2
  simp only [shapeCast_self]
  rw [addf_apply, gatedByDown_apply]
  refine congrArg (acc (ix2 p q) + ·) (Finset.sum_congr rfl fun n _ => ?_)
  rw [truncf_apply, mulf_apply, rowsByRows_apply, rowsByRows_apply]

end Cert.KernelIdeal.Payload

end
-- ==== Proof.Blocks.lean ====
/-
  The input blocks a grid point reads, as entries of the arrays the region finds.

  Point `t` of the 16 × 86 grid is row tile `t / 86` and channel block `t % 86`. Its block of activations is rows
  `512 (t / 86) + p`; its blocks of gate and up weights are channel rows `128 (t % 86) + n`; its block of down weights is
  the channel columns `128 (t % 86) + n` of every row.
-/
import proofs.«122213_j6665789243839_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The four arrays the input windows stage, as the region finds them, at their literal types. -/
abbrev actsArr (c : Dev nD) : Vec Ideal S8192x4096 .bf16 := V m c main_v1
abbrev gateArr (c : Dev nD) : Vec Ideal S11008x4096 .bf16 := V m c main_v6
abbrev upArr (c : Dev nD) : Vec Ideal S11008x4096 .bf16 := V m c main_v11
abbrev downArr (c : Dev nD) : Vec Ideal S4096x11008 .bf16 := V m c main_v16

/-- The four blocks point `t` reads, at their literal types. -/
abbrev actsBlk (c : Dev nD) (t : Fin cfg0.N) : Vec Ideal S512x4096 .bf16 := iblk m c 0 t
abbrev gateBlk (c : Dev nD) (t : Fin cfg0.N) : Vec Ideal S128x4096 .bf16 := iblk m c 1 t
abbrev upBlk (c : Dev nD) (t : Fin cfg0.N) : Vec Ideal S128x4096 .bf16 := iblk m c 2 t
abbrev downBlk (c : Dev nD) (t : Fin cfg0.N) : Vec Ideal S4096x128 .bf16 := iblk m c 3 t

/-- Which block of each array a point reads and writes: decided over the grid. -/
theorem block_indices : ∀ t : Fin cfg0.N,
    win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = 0 ∧ win0_3.index t (1 : Fin 2) = t.val % 86
    ∧ win0_4.index t (0 : Fin 2) = t.val / 86 ∧ win0_4.index t (1 : Fin 2) = 0 :=
  (by decide +kernel : ∀ t : Fin grid0.N, _)

theorem point_lt (t : Fin cfg0.N) : t.val < 1376 := lt_of_lt_of_eq t.isLt (show cfg0.N = 1376 from N_0)

/-- The activations' block: rows `512 (t / 86) + p`. -/
theorem actsBlk_apply (c : Dev nD) (t : Fin cfg0.N) (p : Fin 512) (k : Fin 4096) :
    actsBlk m c t (ix2 p k)
      = actsArr m c (ix2 (⟨512 * (t.val / 86) + p.val, by have := point_lt t; have := p.isLt; omega⟩ : Fin 8192) k) := by
  obtain ⟨e0, e1, -⟩ := block_indices t
  show iblk m c 0 t (ix2 p k) = _
  unfold iblk
  rw [View.read_apply]
  show V m c main_v1 _ = V m c main_v1 _
  congr 1
  funext a
  apply Fin.ext
  match a with
  | ⟨0, _⟩ => show win0_0.index t (0 : Fin 2) * 512 + 1 * p.val = 512 * (t.val / 86) + p.val; rw [e0]; omega
  | ⟨1, _⟩ => show win0_0.index t (1 : Fin 2) * 4096 + 1 * k.val = k.val; rw [e1]; omega

/-- The gate weights' block: channel rows `128 (t % 86) + n`. -/
theorem gateBlk_apply (c : Dev nD) (t : Fin cfg0.N) (n : Fin 128) (k : Fin 4096) :
    gateBlk m c t (ix2 n k)
      = gateArr m c (ix2 (⟨128 * (t.val % 86) + n.val, by have := n.isLt; omega⟩ : Fin 11008) k) := by
  obtain ⟨-, -, e0, e1, -⟩ := block_indices t
  show iblk m c 1 t (ix2 n k) = _
  unfold iblk
  rw [View.read_apply]
  show V m c main_v6 _ = V m c main_v6 _
  congr 1
  funext a
  apply Fin.ext
  match a with
  | ⟨0, _⟩ => show win0_1.index t (0 : Fin 2) * 128 + 1 * n.val = 128 * (t.val % 86) + n.val; rw [e0]; omega
  | ⟨1, _⟩ => show win0_1.index t (1 : Fin 2) * 4096 + 1 * k.val = k.val; rw [e1]; omega

/-- The up weights' block: the same channel rows. -/
theorem upBlk_apply (c : Dev nD) (t : Fin cfg0.N) (n : Fin 128) (k : Fin 4096) :
    upBlk m c t (ix2 n k)
      = upArr m c (ix2 (⟨128 * (t.val % 86) + n.val, by have := n.isLt; omega⟩ : Fin 11008) k) := by
  obtain ⟨-, -, -, -, e0, e1, -⟩ := block_indices t
  show iblk m c 2 t (ix2 n k) = _
  unfold iblk
  rw [View.read_apply]
  show V m c main_v11 _ = V m c main_v11 _
  congr 1
  funext a
  apply Fin.ext
  match a with
  | ⟨0, _⟩ => show win0_2.index t (0 : Fin 2) * 128 + 1 * n.val = 128 * (t.val % 86) + n.val; rw [e0]; omega
  | ⟨1, _⟩ => show win0_2.index t (1 : Fin 2) * 4096 + 1 * k.val = k.val; rw [e1]; omega

/-- The down weights' block: every row, channel columns `128 (t % 86) + n`. -/
theorem downBlk_apply (c : Dev nD) (t : Fin cfg0.N) (q : Fin 4096) (n : Fin 128) :
    downBlk m c t (ix2 q n)
      = downArr m c (ix2 q (⟨128 * (t.val % 86) + n.val, by have := n.isLt; omega⟩ : Fin 11008)) := by
  obtain ⟨-, -, -, -, -, -, e0, e1, -⟩ := block_indices t
  show iblk m c 3 t (ix2 q n) = _
  unfold iblk
  rw [View.read_apply]
  show V m c main_v16 _ = V m c main_v16 _
  congr 1
  funext a
  apply Fin.ext
  match a with
  | ⟨0, _⟩ => show win0_3.index t (0 : Fin 2) * 4096 + 1 * q.val = q.val; rw [e0]; omega
  | ⟨1, _⟩ => show win0_3.index t (1 : Fin 2) * 128 + 1 * n.val = 128 * (t.val % 86) + n.val; rw [e1]; omega

end Cert.KernelIdeal.Blocks

end
-- ==== Proof.Accum.lean ====
/-
  The running value of the output block, point by point.

  Row tile `t / 86` is visited at 86 consecutive points, one per channel block. At the first of them the block is set to
  `0 + (block 0's contribution)`; at each later one the block found is what the point before left, and this block's
  contribution is added. So after the point of channel block `j` the entry `(p, q)` of the output block is the sum of the
  contributions of channel blocks `0 … j` to entry `(512 (t / 86) + p, q)` of the gated product.
-/
import proofs.«122213_j6665789243839_1_alg».proof.Proof.Spec
import proofs.«122213_j6665789243839_1_alg».proof.Proof.Pieces
import proofs.«122213_j6665789243839_1_alg».proof.Proof.Payload
import proofs.«122213_j6665789243839_1_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.GatedMlp Cert.KernelIdeal.Blocks

variable (m : (ℓ : Loc nD τ sig) → Buf (Elt Ideal) ℓ)

/-- The four arrays the region finds, by coordinates. -/
def acts (c : Dev nD) : Fin 8192 → Fin 4096 → EReal := fun M k => actsArr m c (ix2 M k)
def gate (c : Dev nD) : Fin 11008 → Fin 4096 → EReal := fun i k => gateArr m c (ix2 i k)
def up (c : Dev nD) : Fin 11008 → Fin 4096 → EReal := fun i k => upArr m c (ix2 i k)
def down (c : Dev nD) : Fin 4096 → Fin 11008 → EReal := fun q i => downArr m c (ix2 q i)

/-- What the blocks of point `t` contribute to entry `(p, q)` of the output block is channel block `t % 86`'s
    contribution to entry `(512 (t / 86) + p, q)` of the gated product. -/
theorem contribution (c : Dev nD) (t : Fin cfg0.N) (p : Fin 512) (q : Fin 4096) (M : Fin 8192)
    (hM : M.val = 512 * (t.val / 86) + p.val) (j : ℕ) (hj : j = t.val % 86) :
    (∑ n : Fin 128, ((∑ k : Fin 4096, actsBlk m c t (ix2 p k) * gateBlk m c t (ix2 n k))
        * (∑ k : Fin 4096, actsBlk m c t (ix2 p k) * upBlk m c t (ix2 n k))) * downBlk m c t (ix2 q n))
      = blockSum (acts m c) (gate m c) (up m c) (down m c) M q j := by
  subst hj
  have hb : 512 * (t.val / 86) + p.val < 8192 := hM ▸ M.isLt
  rw [show M = (⟨512 * (t.val / 86) + p.val, hb⟩ : Fin 8192) from Fin.ext hM]
  rw [blockSum_eq _ _ _ _ _ _ _ (Nat.mod_lt _ (by decide))]
  refine Finset.sum_congr rfl fun n _ => ?_
  unfold term acts gate up down
  simp only [actsBlk_apply, gateBlk_apply, upBlk_apply, downBlk_apply]

/-- THE RUNNING VALUE: after point `n` (row tile `n / 86`, channel block `n % 86`) the output block holds, at `(p, q)`,
    the contributions of channel blocks `0 … n % 86`. By induction on the point. -/
theorem running (c : Dev nD) : ∀ (n : ℕ) (hn : n < cfg0.N) (p : Fin 512) (q : Fin 4096) (M : Fin 8192),
    M.val = 512 * (n / 86) + p.val →
    (outsAt0 m c n hn : Vec Ideal S512x4096 .f32) (ix2 p q) = upTo (acts m c) (gate m c) (up m c) (down m c) M q (n % 86) := by
  intro n
  induction n with
  | zero =>
    intro hn p q M hM
    have h0 : (⟨0, hn⟩ : Fin cfg0.N).val % 86 = 0 := rfl
    rw [outsAt0_A m c ⟨0, hn⟩ h0]
    refine (congrFun (Pieces.first_block (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr h0)
      (actsBlk m c ⟨0, hn⟩) (gateBlk m c ⟨0, hn⟩) (upBlk m c ⟨0, hn⟩) (downBlk m c ⟨0, hn⟩)) (ix2 p q)).trans ?_
    refine (Payload.pay2_apply (actsBlk m c ⟨0, hn⟩) (gateBlk m c ⟨0, hn⟩) (upBlk m c ⟨0, hn⟩) (downBlk m c ⟨0, hn⟩)
      (Pieces.zeroBlock (F := Ideal)) p q).trans ?_
    rw [contribution m c ⟨0, hn⟩ p q M hM 0 rfl]
    show Pieces.zeroBlock (F := Ideal) (ix2 p q) + _ = _
    rw [show Pieces.zeroBlock (F := Ideal) (ix2 p q) = 0 from Payload.pay1_apply _, Nat.zero_mod, upTo_zero]
  | succ n ih =>
    intro hn p q M hM
    have hN : n + 1 < 1376 := lt_of_lt_of_eq hn (show cfg0.N = 1376 from N_0)
    by_cases h0 : (n + 1) % 86 = 0
    · have h0' : (⟨n + 1, hn⟩ : Fin cfg0.N).val % 86 = 0 := h0
      rw [outsAt0_A m c ⟨n + 1, hn⟩ h0']
      refine (congrFun (Pieces.first_block (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0')
        (actsBlk m c ⟨n + 1, hn⟩) (gateBlk m c ⟨n + 1, hn⟩) (upBlk m c ⟨n + 1, hn⟩) (downBlk m c ⟨n + 1, hn⟩)) (ix2 p q)).trans ?_
      refine (Payload.pay2_apply (actsBlk m c ⟨n + 1, hn⟩) (gateBlk m c ⟨n + 1, hn⟩) (upBlk m c ⟨n + 1, hn⟩) (downBlk m c ⟨n + 1, hn⟩)
        (Pieces.zeroBlock (F := Ideal)) p q).trans ?_
      rw [contribution m c ⟨n + 1, hn⟩ p q M hM ((n + 1) % 86) rfl]
      show Pieces.zeroBlock (F := Ideal) (ix2 p q) + _ = _
      rw [show Pieces.zeroBlock (F := Ideal) (ix2 p q) = 0 from Payload.pay1_apply _, h0, upTo_zero]
    · have h0' : ¬(⟨n + 1, hn⟩ : Fin cfg0.N).val % 86 = 0 := h0
      rw [outsAt0_B m c ⟨n + 1, hn⟩ h0']
      refine (congrFun (Pieces.later_block (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0' ((hcond0_0 ⟨n + 1, hn⟩).mp h))
        (actsBlk m c ⟨n + 1, hn⟩) (gateBlk m c ⟨n + 1, hn⟩) (upBlk m c ⟨n + 1, hn⟩) (downBlk m c ⟨n + 1, hn⟩)
        (outsAt0 m c n (Nat.lt_of_succ_lt hn))) (ix2 p q)).trans ?_
      refine (Payload.pay2_apply (actsBlk m c ⟨n + 1, hn⟩) (gateBlk m c ⟨n + 1, hn⟩) (upBlk m c ⟨n + 1, hn⟩) (downBlk m c ⟨n + 1, hn⟩)
        (outsAt0 m c n (Nat.lt_of_succ_lt hn)) p q).trans ?_
      have hdiv : n / 86 = (n + 1) / 86 := by omega
      have hmod : (n + 1) % 86 = n % 86 + 1 := by omega
      rw [contribution m c ⟨n + 1, hn⟩ p q M hM ((n + 1) % 86) rfl,
        ih (Nat.lt_of_succ_lt hn) p q M (by rw [hM, hdiv]), hmod, upTo_succ]

end Cert.KernelIdeal.Accum

end
-- ==== Proof.Arrays.lean ====
/-
  What the kernel's region finds in the four arrays its input windows stage, as functions of the program's arguments.

  The host lines before the region reshape the activations `x` from [4, 2048, 4096] to [8192, 4096] (row `2048 b + s`
  is position `s` of batch `b`) and scale each integer weight matrix, row by row, by its per-row scale. The changes of
  float format do nothing to the values.
-/
import proofs.«122213_j6665789243839_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Arrays

open Cert.KernelIdeal Cert.KernelIdeal.Gen

/-- A vector of `R` per-row values spread first to a column [R, 1] and then across [R, C] holds, at `(r, c)`, row
    `r`'s value (`R` is not 1, so the first axis is a real one). -/
theorem rowSpread_apply {α : Type} {R C : Nat} (hR : R ≠ 1) (x : (⟨1, ![R]⟩ : Shape).Idx → α)
    (h1 : (⟨1, ![R]⟩ : Shape).BroadcastsInDim ⟨2, ![R, 1]⟩ (![0] : Fin 1 → Fin 2))
    (h2 : (⟨2, ![R, 1]⟩ : Shape).BroadcastsInDim ⟨2, ![R, C]⟩ (![0, 1] : Fin 2 → Fin 2)) (r : Fin R) (c : Fin C) :
    broadcastInDim ⟨2, ![R, C]⟩ ![0, 1] h2 (broadcastInDim ⟨2, ![R, 1]⟩ ![0] h1 x) (ix2 r c) = x (ix1 r) := by
  rw [broadcastInDim_apply _ h2 _ (ix2 r c) (ix2 r ⟨0, Nat.one_pos⟩) (fun a => match a with
    | ⟨0, _⟩ => by show r.val = if R = 1 then 0 else r.val; rw [if_neg hR]
    | ⟨1, _⟩ => by show 0 = if (1 : Nat) = 1 then 0 else c.val; rw [if_pos rfl])]
  exact broadcastInDim_apply _ h1 x (ix2 r ⟨0, Nat.one_pos⟩) (ix1 r) (fun a => match a with
    | ⟨0, _⟩ => by show r.val = if R = 1 then 0 else r.val; rw [if_neg hR])

variable {F : FTy → Type} [FloatOps F]
variable (m : (ℓ : Loc nD τ sig) → Buf (Elt F) ℓ)

/-- The activations as the region finds them: the argument reshaped to two axes. -/
theorem acts_eq (c : Dev nD) :
    (V m c main_v1 : S8192x4096.Idx → Elt F .bf16)
      = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- The gate weights as the region finds them: the integers as floats, each row times its scale. -/
theorem gate_eq (c : Dev nD) :
    (V m c main_v6 : S11008x4096.Idx → Elt F .bf16)
      = truncf .bf16 (mulf (sitofp .f32 (m ((c : Thread nD τ).loc main_arg1)))
          (broadcastInDim S11008x4096 ![0, 1] bcast_S11008x1_S11008x4096_0_1
            (broadcastInDim S11008x1 ![0] bcast_S11008_S11008x1_0 (m ((c : Thread nD τ).loc main_arg2))))) bitsLt_bf16_f32 := by
  show StableHlo.after hostOps0 (fun b => m (c, b)) (Proc.devRef .tc main_v6) = _
  after_results

/-- The up weights likewise. -/
theorem up_eq (c : Dev nD) :
    (V m c main_v11 : S11008x4096.Idx → Elt F .bf16)
      = truncf .bf16 (mulf (sitofp .f32 (m ((c : Thread nD τ).loc main_arg3)))
          (broadcastInDim S11008x4096 ![0, 1] bcast_S11008x1_S11008x4096_0_1
            (broadcastInDim S11008x1 ![0] bcast_S11008_S11008x1_0 (m ((c : Thread nD τ).loc main_arg4))))) bitsLt_bf16_f32 := by
  show StableHlo.after hostOps0 (fun b => m (c, b)) (Proc.devRef .tc main_v11) = _
  after_results

/-- The down weights likewise (4096 rows of 11008 channels). -/
theorem down_eq (c : Dev nD) :
    (V m c main_v16 : S4096x11008.Idx → Elt F .bf16)
      = truncf .bf16 (mulf (sitofp .f32 (m ((c : Thread nD τ).loc main_arg5)))
          (broadcastInDim S4096x11008 ![0, 1] bcast_S4096x1_S4096x11008_0_1
            (broadcastInDim S4096x1 ![0] bcast_S4096_S4096x1_0 (m ((c : Thread nD τ).loc main_arg6))))) bitsLt_bf16_f32 := by
  show StableHlo.after hostOps0 (fun b => m (c, b)) (Proc.devRef .tc main_v16) = _
  after_results

end Cert.KernelIdeal.Arrays

/-! ## The same arrays at an entry, over the extended reals -/

namespace Cert.KernelIdeal.Arrays

open Cert.KernelIdeal Cert.KernelIdeal.Gen

variable (m : (ℓ : Loc nD τ sig) → Buf (Elt Ideal) ℓ)

/-- Row `2048 b + s` of the reshaped activations is position `s` of batch `b`. -/
theorem acts_apply (c : Dev nD) (b : Fin 4) (s : Fin 2048) (h : Fin 4096) :
    (V m c main_v1 : S8192x4096.Idx → EReal) (ix2 (⟨2048 * b.val + s.val, by have := b.isLt; have := s.isLt; omega⟩ : Fin 8192) h)
      = (m ((c : Thread nD τ).loc main_arg0) : S4x2048x4096.Idx → EReal) (ix3 b s h) := by
  rw [acts_eq, truncf_apply]
  refine shapeCast_apply _ _ _ (ix3 b s h) ?_
  rw [Shape.rowMajor_val_two, Shape.rowMajor_val_three]
  show (b.val * 2048 + s.val) * 4096 + h.val = (2048 * b.val + s.val) * 4096 + h.val
  omega

/-- A scaled weight at `(i, h)`: the integer read as a number, times row `i`'s scale. -/
theorem gate_apply (c : Dev nD) (i : Fin 11008) (h : Fin 4096) :
    (V m c main_v6 : S11008x4096.Idx → EReal) (ix2 i h)
      = FloatOps.sitofp (F := Ideal) .f32 ((m ((c : Thread nD τ).loc main_arg1) : S11008x4096.Idx → BitVec 32) (ix2 i h))
        * (m ((c : Thread nD τ).loc main_arg2) : S11008.Idx → EReal) (ix1 i) := by
  rw [gate_eq, truncf_apply, mulf_apply, sitofp_apply, rowSpread_apply (by decide)]

theorem up_apply (c : Dev nD) (i : Fin 11008) (h : Fin 4096) :
    (V m c main_v11 : S11008x4096.Idx → EReal) (ix2 i h)
      = FloatOps.sitofp (F := Ideal) .f32 ((m ((c : Thread nD τ).loc main_arg3) : S11008x4096.Idx → BitVec 32) (ix2 i h))
        * (m ((c : Thread nD τ).loc main_arg4) : S11008.Idx → EReal) (ix1 i) := by
  rw [up_eq, truncf_apply, mulf_apply, sitofp_apply, rowSpread_apply (by decide)]

theorem down_apply (c : Dev nD) (q : Fin 4096) (i : Fin 11008) :
    (V m c main_v16 : S4096x11008.Idx → EReal) (ix2 q i)
      = FloatOps.sitofp (F := Ideal) .f32 ((m ((c : Thread nD τ).loc main_arg5) : S4096x11008.Idx → BitVec 32) (ix2 q i))
        * (m ((c : Thread nD τ).loc main_arg6) : S4096.Idx → EReal) (ix1 q) := by
  rw [down_eq, truncf_apply, mulf_apply, sitofp_apply, rowSpread_apply (by decide)]

end Cert.KernelIdeal.Arrays

end
-- ==== Proof.Result.lean ====
/-
  The whole computation as one function of the seven arguments, entry by entry.

  `x` is [4, 2048, 4096]; each weight matrix is an integer matrix whose row `r` is scaled by `scale r`. Entry `(b, s, q)`
  of the result is, over the channels `i`,
      ∑ i, ((∑ k, x (b, s, k) * gate i k) * (∑ k, x (b, s, k) * up i k)) * down q i
  with `gate i k = (gq (i, k) as a number) * gs i`, likewise `up` and `down`.
-/
import Idealize.ShloMosaic.PureOps.Ideal
import Idealize.ShloMosaic.Lib.ValueIdx

noncomputable section

open Idealize.ShloMosaic Idealize.ShloMosaic.ValueIdx

namespace Cert.GatedMlp

/-- A scaled integer weight: the integer read as a number, times its row's scale. -/
def scaled {R C : Nat} (wq : (⟨2, ![R, C]⟩ : Shape).Idx → BitVec 32) (ws : (⟨1, ![R]⟩ : Shape).Idx → EReal) (r : Fin R) (c : Fin C) : EReal :=
  FloatOps.sitofp (F := Ideal) .f32 (wq (ix2 r c)) * ws (ix1 r)

/-- The gated product of the three scaled linear maps, at an entry of the [4, 2048, 4096] result. -/
def result3 (x : (⟨3, ![4, 2048, 4096]⟩ : Shape).Idx → EReal)
    (gq : (⟨2, ![11008, 4096]⟩ : Shape).Idx → BitVec 32) (gs : (⟨1, ![11008]⟩ : Shape).Idx → EReal)
    (uq : (⟨2, ![11008, 4096]⟩ : Shape).Idx → BitVec 32) (us : (⟨1, ![11008]⟩ : Shape).Idx → EReal)
    (dq : (⟨2, ![4096, 11008]⟩ : Shape).Idx → BitVec 32) (ds : (⟨1, ![4096]⟩ : Shape).Idx → EReal) :
    (⟨3, ![4, 2048, 4096]⟩ : Shape).Idx → EReal := fun j =>
  ∑ i : Fin 11008, ((∑ k : Fin 4096, x (ix3 (j 0) (j 1) k) * scaled gq gs i k)
      * (∑ k : Fin 4096, x (ix3 (j 0) (j 1) k) * scaled uq us i k)) * scaled dq ds (j 2) i

end Cert.GatedMlp

end
-- ==== Proof.Final.lean ====
/-
  The kernel's result, as a function of its arguments.

  The output block of row tile `T` is written back once, after the last of its 86 channel blocks, when it holds the whole
  sum over the channels; the 16 row tiles' blocks tile the [8192, 4096] array. The host line after the region reshapes
  that array to [4, 2048, 4096]: entry `(b, s, q)` is entry `(2048 b + s, q)`. With the arrays the region finds written
  in the arguments, that is `result3` of the arguments.
-/
import proofs.«122213_j6665789243839_1_alg».proof.Proof.Accum
import proofs.«122213_j6665789243839_1_alg».proof.Proof.Arrays
import proofs.«122213_j6665789243839_1_alg».proof.Proof.Result
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Final

open Cert.KernelIdeal Cert.KernelIdeal.Gen Cert.GatedMlp Cert.KernelIdeal.Blocks Cert.KernelIdeal.Accum

variable (m : (ℓ : Loc nD τ sig) → Buf (Elt Ideal) ℓ) (ρ : Dev nD → PrngReg)

/-- What the [8192, 4096] result array ends holding: the gated product of the arrays the region finds. -/
def outArr (c : Dev nD) : Vec Ideal S8192x4096 .f32 := fun j =>
  mlp (acts m c) (gate m c) (up m c) (down m c) (j 0) (j 1)

/-- THE WRITE-BACKS: a flushing point (the last channel block of its row tile) writes its block of `outArr`. -/
theorem flushed_eq (c : Dev nD) (t : Fin cfg0.N) (hf : (cfg0.win 4).flush t = true) :
    (dats m 0 c).flushed 4 t = ((cfg0.win 4).blk t).view.read (Elt Ideal) (outArr m c) := by
  have h85 : t.val % 86 = 85 := (flush0_4 t).mp hf
  obtain ⟨-, -, -, -, -, -, -, -, e0, e1⟩ := block_indices t
  show (cfg0.win 4).cut (grid0.coords t) ((dats m 0 c).after 4 t) = _
  rw [after0_4]
  funext y
  obtain ⟨p, q, rfl⟩ : ∃ (p : Fin 512) (q : Fin 4096), y = ix2 p q := ⟨y 0, y 1, eq_ix2 y⟩
  show (outsAt0 m c t.val t.isLt : Vec Ideal S512x4096 .f32) (ix2 p q) = outArr m c (((cfg0.win 4).blk t).view.emb (ix2 p q))
  have hb : 512 * (t.val / 86) + p.val < 8192 := by have := point_lt t; have := p.isLt; omega
  have hemb : ((cfg0.win 4).blk t).view.emb (ix2 p q) = (ix2 (⟨512 * (t.val / 86) + p.val, hb⟩ : Fin 8192) q : S8192x4096.Idx) := by
    funext a
    apply Fin.ext
    match a with
    | ⟨0, _⟩ => show win0_4.index t (0 : Fin 2) * 512 + 1 * p.val = 512 * (t.val / 86) + p.val; rw [e0]; omega
    | ⟨1, _⟩ => show win0_4.index t (1 : Fin 2) * 4096 + 1 * q.val = q.val; rw [e1]; omega
  refine Eq.trans ?_ (congrArg (outArr m c) hemb).symm
  rw [running m c t.val t.isLt p q ⟨512 * (t.val / 86) + p.val, hb⟩ rfl, h85, upTo_last]
  rfl

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v17).slice (win0_4.rect t)).set ↔ _
  rw [View.set_slice_whole, Rect.mem_set_unit]
  exact Iff.rfl

/-- THE COVER: row `r` is in the block written back at the last channel block of row tile `r / 512`. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 1376 := N_0
  refine ⟨⟨86 * ((i 0).val / 512) + 85, by rw [hN]; omega⟩, (flush0_4 _).mpr (by show (86 * ((i 0).val / 512) + 85) % 86 = 85; omega), ?_⟩
  rw [mem_blk]
  obtain ⟨-, -, -, -, -, -, -, -, e0, e1⟩ := block_indices ⟨86 * ((i 0).val / 512) + 85, by rw [hN]; omega⟩
  intro a
  match a with
  | ⟨0, _⟩ =>
    show win0_4.index _ (0 : Fin 2) * 512 ≤ (i 0).val ∧ (i 0).val < win0_4.index _ (0 : Fin 2) * 512 + 512
    rw [e0]
    show (86 * ((i 0).val / 512) + 85) / 86 * 512 ≤ (i 0).val ∧ (i 0).val < (86 * ((i 0).val / 512) + 85) / 86 * 512 + 512
    omega
  | ⟨1, _⟩ =>
    show win0_4.index _ (1 : Fin 2) * 4096 ≤ (i 1).val ∧ (i 1).val < win0_4.index _ (1 : Fin 2) * 4096 + 4096
    rw [e1]
    omega

/-- So the result array ends holding `outArr`. -/
theorem final_out (c : Dev nD) : (dats m 0 c).arrAt 4 cfg0.N = outArr m c :=
  (dats m 0 c).arrAt_eq_of_cover 4 (outArr m c) (flushed_eq m c) cover

end Cert.KernelIdeal.Final

end
-- ==== Proof.KernelRun.lean ====
/-
  The kernel's run, read: its result is `result3` of its arguments.

  The line after the region reshapes the [8192, 4096] array to [4, 2048, 4096], so entry `(b, s, q)` is entry
  `(2048 b + s, q)` of the gated product of the arrays the region finds; row `2048 b + s` of the activations is position
  `(b, s)` of `x`, and the weights the region finds are the scaled integer weights.
-/
import proofs.«122213_j6665789243839_1_alg».proof.Proof.Final

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KernelRun

open Cert.KernelIdeal Cert.KernelIdeal.Gen Cert.GatedMlp Cert.KernelIdeal.Blocks Cert.KernelIdeal.Accum Cert.KernelIdeal.Final

variable (m : (ℓ : Loc nD τ sig) → Buf (Elt Ideal) ℓ) (ρ : Dev nD → PrngReg)

/-- The line after the region: the [8192, 4096] array reshaped to [4, 2048, 4096]. -/
theorem tail_eq (c : Dev nD) :
    (Pipeline.afterTail₀ cfgs (dats m) 0 (V0 m) [hostOps1] c main_v18 : S4x2048x4096.Idx → EReal)
      = shapeCast S4x2048x4096 (outArr m c) shapeCasts_S8192x4096_S4x2048x4096 := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = outArr m c :=
    (Pipeline.withArrays_arr spec0 launch0.win.arr_inj c _ _ 4).trans (final_out m c)
  rw [hw]
  rfl

/-- The seven argument arrays of core `c`, at their literal types. -/
abbrev xArg (c : Dev nD) : S4x2048x4096.Idx → EReal := m ((c.tc : Thread nD τ).loc main_arg0)
abbrev gqArg (c : Dev nD) : S11008x4096.Idx → BitVec 32 := m ((c.tc : Thread nD τ).loc main_arg1)
abbrev gsArg (c : Dev nD) : S11008.Idx → EReal := m ((c.tc : Thread nD τ).loc main_arg2)
abbrev uqArg (c : Dev nD) : S11008x4096.Idx → BitVec 32 := m ((c.tc : Thread nD τ).loc main_arg3)
abbrev usArg (c : Dev nD) : S11008.Idx → EReal := m ((c.tc : Thread nD τ).loc main_arg4)
abbrev dqArg (c : Dev nD) : S4096x11008.Idx → BitVec 32 := m ((c.tc : Thread nD τ).loc main_arg5)
abbrev dsArg (c : Dev nD) : S4096.Idx → EReal := m ((c.tc : Thread nD τ).loc main_arg6)

/-- The program's result, as a function of its arguments. -/
abbrev result (c : Dev nD) : S4x2048x4096.Idx → EReal :=
  result3 (xArg m c) (gqArg m c) (gsArg m c) (uqArg m c) (usArg m c) (dqArg m c) (dsArg m c)

/-- Entry `(2048 b + s, q)` of the gated product of the arrays the region finds is entry `(b, s, q)` of `result3`. -/
theorem outArr_apply (c : Dev nD) (b : Fin 4) (s : Fin 2048) (q : Fin 4096) :
    outArr m c (ix2 (⟨2048 * b.val + s.val, by have := b.isLt; have := s.isLt; omega⟩ : Fin 8192) q) = result m c (ix3 b s q) := by
  show ∑ i : Fin 11008, ((∑ k : Fin 4096, acts m c ⟨2048 * b.val + s.val, _⟩ k * gate m c i k)
      * (∑ k : Fin 4096, acts m c ⟨2048 * b.val + s.val, _⟩ k * up m c i k)) * down m c q i
    = ∑ i : Fin 11008, ((∑ k : Fin 4096, xArg m c (ix3 b s k) * scaled (gqArg m c) (gsArg m c) i k)
      * (∑ k : Fin 4096, xArg m c (ix3 b s k) * scaled (uqArg m c) (usArg m c) i k)) * scaled (dqArg m c) (dsArg m c) q i
  refine Finset.sum_congr rfl fun i _ => ?_
  have hd : down m c q i = scaled (dqArg m c) (dsArg m c) q i := Arrays.down_apply m c q i
  have hg : ∀ k : Fin 4096, gate m c i k = scaled (gqArg m c) (gsArg m c) i k := fun k => Arrays.gate_apply m c i k
  have hu : ∀ k : Fin 4096, up m c i k = scaled (uqArg m c) (usArg m c) i k := fun k => Arrays.up_apply m c i k
  have ha : ∀ k : Fin 4096, acts m c ⟨2048 * b.val + s.val, by have := b.isLt; have := s.isLt; omega⟩ k = xArg m c (ix3 b s k) :=
    fun k => Arrays.acts_apply m c b s k
  simp only [hd, hg, hu, ha]

/-- The result at an entry. -/
theorem tail_apply (c : Dev nD) (j : S4x2048x4096.Idx) :
    shapeCast S4x2048x4096 (outArr m c) shapeCasts_S8192x4096_S4x2048x4096 j = result m c j := by
  obtain ⟨b, s, q, rfl⟩ : ∃ (b : Fin 4) (s : Fin 2048) (q : Fin 4096), j = ix3 b s q := ⟨j 0, j 1, j 2, eq_ix3 j⟩
  rw [← outArr_apply]
  refine shapeCast_apply _ _ _ (ix2 (⟨2048 * b.val + s.val, by have := b.isLt; have := s.isLt; omega⟩ : Fin 8192) q) ?_
  rw [Shape.rowMajor_val_two, Shape.rowMajor_val_three]
  show (2048 * b.val + s.val) * 4096 + q.val = (b.val * 2048 + s.val) * 4096 + q.val
  omega

/-- THE KERNEL'S RUN: every execution ends with the result array at `result3` of the arguments, the arguments unchanged. -/
theorem run : θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v18 (Pipeline.mem_restRefs_of main_v18 (by decide) (by decide))).trans
        ((tail_eq m c).trans (funext fun j => tail_apply m c j)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KernelRun

end
-- ==== Proof.RefRead.lean ====
/-
  The reference computes the gated product directly.

  Its two first contractions pair position `(b, s)` of `x` with a scaled weight row over the 4096 hidden positions; the
  results are multiplied entry by entry and contracted with the scaled down weights over all 11008 channels. Read one
  operation at a time at an entry, that is the function `result3` of the seven arguments.
-/
import proofs.«122213_j6665789243839_1_alg».proof.Proof.Gen.ReferenceIdeal.Run
import proofs.«122213_j6665789243839_1_alg».proof.Proof.Gen.ReferenceIdeal.Read
import proofs.«122213_j6665789243839_1_alg».proof.Proof.Result

noncomputable section

open Idealize.ShloMosaic Idealize.ShloMosaic.ValueIdx

namespace Cert.ReferenceIdeal.RefValue

open Cert.ReferenceIdeal Cert.ReferenceIdeal.Read Cert.GatedMlp

/-- A scaled weight of the reference at `(r, c)`: the two broadcasts of the scale read row `r`'s value. -/
theorem gateW_apply (x1 : S11008x4096.Idx → BitVec 32) (x2 : S11008.Idx → EReal) (r : Fin 11008) (c : Fin 4096) :
    val_main_v3 (F := Ideal) x1 x2 (ix2 r c) = scaled x1 x2 r c := by
  rw [val_main_v3_apply, val_main_v0_apply, val_main_v2_apply, val_main_v1_apply]
  have e : idx_main_v1 (idx_main_v2 (ix2 r c)) = ix1 r := funext fun a => Fin.ext (by
    match a with | ⟨0, _⟩ => rfl)
  rw [e]
  rfl

theorem upW_apply (x3 : S11008x4096.Idx → BitVec 32) (x4 : S11008.Idx → EReal) (r : Fin 11008) (c : Fin 4096) :
    val_main_v7 (F := Ideal) x3 x4 (ix2 r c) = scaled x3 x4 r c := by
  rw [val_main_v7_apply, val_main_v4_apply, val_main_v6_apply, val_main_v5_apply]
  have e : idx_main_v5 (idx_main_v6 (ix2 r c)) = ix1 r := funext fun a => Fin.ext (by
    match a with | ⟨0, _⟩ => rfl)
  rw [e]
  rfl

theorem downW_apply (x5 : S4096x11008.Idx → BitVec 32) (x6 : S4096.Idx → EReal) (r : Fin 4096) (c : Fin 11008) :
    val_main_v11 (F := Ideal) x5 x6 (ix2 r c) = scaled x5 x6 r c := by
  rw [val_main_v11_apply, val_main_v8_apply, val_main_v10_apply, val_main_v9_apply]
  have e : idx_main_v9 (idx_main_v10 (ix2 r c)) = ix1 r := funext fun a => Fin.ext (by
    match a with | ⟨0, _⟩ => rfl)
  rw [e]
  rfl

/-- The reference's result is `result3` of its arguments. -/
theorem reference_eq (x0 : S4x2048x4096.Idx → EReal) (x1 : S11008x4096.Idx → BitVec 32) (x2 : S11008.Idx → EReal)
    (x3 : S11008x4096.Idx → BitVec 32) (x4 : S11008.Idx → EReal) (x5 : S4096x11008.Idx → BitVec 32) (x6 : S4096.Idx → EReal) :
    val_main_v15 (F := Ideal) x0 x1 x2 x3 x4 x5 x6 = result3 x0 x1 x2 x3 x4 x5 x6 := by
  refine funext fun (j : S4x2048x4096.Idx) => ?_
  obtain ⟨b, s, q, rfl⟩ : ∃ (b : Fin 4) (s : Fin 2048) (q : Fin 4096), j = ix3 b s q := ⟨j 0, j 1, j 2, eq_ix3 j⟩
  rw [val_main_v15_apply]
  show _ = ∑ i : Fin 11008, ((∑ k : Fin 4096, x0 (ix3 b s k) * scaled x1 x2 i k)
      * (∑ k : Fin 4096, x0 (ix3 b s k) * scaled x3 x4 i k)) * scaled x5 x6 q i
  refine Finset.sum_congr rfl fun i _ => ?_
  have eL : lidx_main_v15 (ix3 b s q) i = ix3 b s i := funext fun a => Fin.ext (by
    match a with | ⟨0, _⟩ => rfl | ⟨1, _⟩ => rfl | ⟨2, _⟩ => rfl)
  have eR : ridx_main_v15 (ix3 b s q) i = ix2 q i := funext fun a => Fin.ext (by
    match a with | ⟨0, _⟩ => rfl | ⟨1, _⟩ => rfl)
  rw [eL, eR, downW_apply, val_main_v14_apply, val_main_v12_apply, val_main_v13_apply]
  have eL12 : ∀ k : Fin 4096, lidx_main_v12 (ix3 b s i) k = ix3 b s k := fun k => funext fun a => Fin.ext (by
    match a with | ⟨0, _⟩ => rfl | ⟨1, _⟩ => rfl | ⟨2, _⟩ => rfl)
  have eR12 : ∀ k : Fin 4096, ridx_main_v12 (ix3 b s i) k = ix2 i k := fun k => funext fun a => Fin.ext (by
    match a with | ⟨0, _⟩ => rfl | ⟨1, _⟩ => rfl)
  have eL13 : ∀ k : Fin 4096, lidx_main_v13 (ix3 b s i) k = ix3 b s k := fun k => funext fun a => Fin.ext (by
    match a with | ⟨0, _⟩ => rfl | ⟨1, _⟩ => rfl | ⟨2, _⟩ => rfl)
  have eR13 : ∀ k : Fin 4096, ridx_main_v13 (ix3 b s i) k = ix2 i k := fun k => funext fun a => Fin.ext (by
    match a with | ⟨0, _⟩ => rfl | ⟨1, _⟩ => rfl)
  simp only [eL12, eR12, eL13, eR13, gateW_apply, upW_apply]
  rfl

end Cert.ReferenceIdeal.RefValue

end
-- ==== Proof.lean ====
/-
  A quantized gated MLP, `y = down (gate x * up x)`, as one fused kernel against three einsums.

  Over the extended reals both programs compute, at entry `(b, s, q)`,
      ∑ i, ((∑ k, x (b, s, k) * gate i k) * (∑ k, x (b, s, k) * up i k)) * down q i,
  the three weight matrices being integer matrices scaled row by row. The kernel visits the 11008 channels `i` in 86
  blocks of 128 along the inner grid axis and accumulates the blocks' contributions into a resident output block that
  starts at zero; the reference sums over all channels at once. A sum taken block by block is the same sum
  (associativity and commutativity of `+` alone), a change of float format does nothing to a value, and a matrix
  product into a zero accumulator is the plain sum of products, so the two results are equal at every entry without any
  appeal to finiteness of the inputs.

  The kernel's value is read off its frame run: what a call of the body leaves in the output block (Pieces), the body's
  arithmetic at an entry (Payload), the blocks a grid point reads (Blocks) of the arrays the host lines prepare
  (Arrays), the running sum by induction over the grid points (Accum, over Spec), the write-backs tiling the result
  array and the reshape after the region (Final, KernelRun). The reference's value is its run read one operation at a
  time (RefRead). Both are `result3` of the arguments (Result).
-/
import proofs.«122213_j6665789243839_1_alg».proof.Defs
import proofs.«122213_j6665789243839_1_alg».proof.Proof.Gen.Kernel
import proofs.«122213_j6665789243839_1_alg».proof.Proof.Gen.Kernel.Skeleton
import proofs.«122213_j6665789243839_1_alg».proof.Proof.Gen.Kernel.Launch
import proofs.«122213_j6665789243839_1_alg».proof.Proof.Gen.Kernel.Points
import proofs.«122213_j6665789243839_1_alg».proof.Proof.Gen.Kernel.Frame
import proofs.«122213_j6665789243839_1_alg».proof.Proof.Gen.KernelIdeal
import proofs.«122213_j6665789243839_1_alg».proof.Proof.Gen.KernelIdeal.Skeleton
import proofs.«122213_j6665789243839_1_alg».proof.Proof.Gen.KernelIdeal.Launch
import proofs.«122213_j6665789243839_1_alg».proof.Proof.Gen.KernelIdeal.Points
import proofs.«122213_j6665789243839_1_alg».proof.Proof.Gen.KernelIdeal.Frame
import proofs.«122213_j6665789243839_1_alg».proof.Proof.Gen.ReferenceIdeal
import proofs.«122213_j6665789243839_1_alg».proof.Proof.Gen.Pre_finite_inputs
import proofs.«122213_j6665789243839_1_alg».proof.Proof.KernelRun
import proofs.«122213_j6665789243839_1_alg».proof.Proof.RefRead
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- From memories agreeing on the arguments both programs end with `result3` of those arguments. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.reference_eq
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))).trans ?_
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
